-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x200 : Shape := ⟨2, ![131072, 200]⟩
abbrev S2x256 : Shape := ⟨2, ![2, 256]⟩
abbrev S2 : Shape := ⟨1, ![2]⟩
abbrev S1x400 : Shape := ⟨2, ![1, 400]⟩
abbrev S1 : Shape := ⟨1, ![1]⟩
abbrev S_ : Shape := ⟨0, ![]⟩

class Facts : Prop where
  bcast_S_S2x256 : S_.BroadcastsInDim S2x256 (![] : Fin 0 → Fin S2x256.rank)
  reducesTo_S2x256_S_d0_1 : S2x256.ReducesTo [0, 1] S_
  h_S_ : 0 < S_.numel
  bcast_S_S2 : S_.BroadcastsInDim S2 (![] : Fin 0 → Fin S2.rank)
  reducesTo_S2_S_d0 : S2.ReducesTo [0] S_
  bcast_S_S1x400 : S_.BroadcastsInDim S1x400 (![] : Fin 0 → Fin S1x400.rank)
  reducesTo_S1x400_S_d0_1 : S1x400.ReducesTo [0, 1] S_
  bcast_S_S1 : S_.BroadcastsInDim S1 (![] : Fin 0 → Fin S1.rank)
  reducesTo_S1_S_d0 : S1.ReducesTo [0] S_
  bcast_S_S131072x200 : S_.BroadcastsInDim S131072x200 (![] : Fin 0 → Fin S131072x200.rank)
  reducesTo_S131072x200_S_d0_1 : S131072x200.ReducesTo [0, 1] S_

variable [Facts]

def fn_part1 {F : FTy → Type} [FloatOps F] (main_arg0 : IVec S131072x200 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S131072x200 32 := broadcastInDim S131072x200 ![] bcast_S_S131072x200 main_c_6
  let main_v20 : IVec S131072x200 1 := cmpi .sge main_arg0 main_v19
  let main_c_7 : IVec S_ 32 := constantI S_ 32 256#32
  let main_v21 : IVec S131072x200 32 := broadcastInDim S131072x200 ![] bcast_S_S131072x200 main_c_7
  let main_v22 : IVec S131072x200 1 := cmpi .slt main_arg0 main_v21
  let main_v23 : IVec S131072x200 1 := andi main_v20 main_v22
  let main_c_8 : IVec S_ 1 := constantI S_ 1 1#1
  let main_v24 : IVec S_ 1 := (fun x v => Host.reduce IntOp.andi x v reducesTo_S131072x200_S_d0_1 h_S_) main_v23 main_c_8
  let main_v25 : IVec S_ 1 := andi main_v18 main_v24
  main_v25

def fn {F : FTy → Type} [FloatOps F] (main_arg0 : IVec S131072x200 32) (main_arg1 : FVec F S2x256 .f32) (main_arg2 : FVec F S2 .f32) (main_arg3 : FVec F S1x400 .f32) (main_arg4 : FVec F S1 .f32) : IVec S_ 1 :=
  let main_v0 : FVec F S2x256 .f32 := Host.absf main_arg1
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_c : IVec S_ 1 := constantI S_ 1 1#1
  let main_v3 : IVec S_ 1 := (fun x v => Host.reduce IntOp.andi x v reducesTo_S2x256_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_v9 : FVec F S1x400 .f32 := Host.absf main_arg3
  let main_cst_2 : FVec F S_ .f32 := constant S_ .f32 0x7F800000#32
  let main_v10 : FVec F S1x400 .f32 := broadcastInDim S1x400 ![] bcast_S_S1x400 main_cst_2
  let main_v11 : IVec S1x400 1 := cmpf .olt main_v9 main_v10
  let main_c_3 : IVec S_ 1 := constantI S_ 1 1#1
  let main_v12 : IVec S_ 1 := (fun x v => Host.reduce IntOp.andi x v reducesTo_S1x400_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_v13 main_v16
-- ==== Kernel.lean ====
abbrev S131072x200 : Shape := ⟨2, ![131072, 200]⟩
abbrev S2x256 : Shape := ⟨2, ![2, 256]⟩
abbrev S2 : Shape := ⟨1, ![2]⟩
abbrev S1x400 : Shape := ⟨2, ![1, 400]⟩
abbrev S1 : Shape := ⟨1, ![1]⟩
abbrev S2x1 : Shape := ⟨2, ![2, 1]⟩
abbrev S2x200 : Shape := ⟨2, ![2, 200]⟩
abbrev S200x256 : Shape := ⟨2, ![200, 256]⟩
abbrev S131072x1 : Shape := ⟨2, ![131072, 1]⟩
abbrev S128x200 : Shape := ⟨2, ![128, 200]⟩
abbrev S128x1 : Shape := ⟨2, ![128, 1]⟩
abbrev S128x200x1 : Shape := ⟨3, ![128, 200, 1]⟩
abbrev S128x200x128 : Shape := ⟨3, ![128, 200, 128]⟩
abbrev S200x128 : Shape := ⟨2, ![200, 128]⟩
abbrev S1x200x128 : Shape := ⟨3, ![1, 200, 128]⟩
abbrev S128 : Shape := ⟨1, ![128]⟩
abbrev S1x1 : Shape := ⟨2, ![1, 1]⟩

abbrev nBuf : Space → Nat
  | .hbm => 12
  | .vmem => 6
  | .smem => 0
  | _ => 0

abbrev bufTy : (tb : Table) → Fin (tcTables nBuf tb) → BufTy
  | .hbm, ⟨0, _⟩ => ⟨S131072x200, .i32⟩
  | .hbm, ⟨1, _⟩ => ⟨S2x256, .f32⟩
  | .hbm, ⟨2, _⟩ => ⟨S2, .f32⟩
  | .hbm, ⟨3, _⟩ => ⟨S1x400, .f32⟩
  | .hbm, ⟨4, _⟩ => ⟨S1, .f32⟩
  | .hbm, ⟨5, _⟩ => ⟨S2x1, .f32⟩
  | .hbm, ⟨6, _⟩ => ⟨S2x256, .f32⟩
  | .hbm, ⟨7, _⟩ => ⟨S2x256, .f32⟩
  | .hbm, ⟨8, _⟩ => ⟨S2x256, .f32⟩
  | .hbm, ⟨9, _⟩ => ⟨S2x200, .f32⟩
  | .hbm, ⟨10, _⟩ => ⟨S200x256, .f32⟩
  | .hbm, ⟨11, _⟩ => ⟨S131072x1, .f32⟩
  | .local _ .vmem, ⟨0, _⟩ => ⟨S128x200, .i32⟩
  | .local _ .vmem, ⟨1, _⟩ => ⟨S128x200, .i32⟩
  | .local _ .vmem, ⟨2, _⟩ => ⟨S200x256, .f32⟩
  | .local _ .vmem, ⟨3, _⟩ => ⟨S1, .f32⟩
  | .local _ .vmem, ⟨4, _⟩ => ⟨S128x1, .f32⟩
  | .local _ .vmem, ⟨5, _⟩ => ⟨S128x1, .f32⟩
  | _, _ => ⟨S131072x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S2_S2x1_0 : S2.BroadcastsInDim S2x1 (![0] : Fin 1 → Fin S2x1.rank)
  bcast_S2x1_S2x256_0_1 : S2x1.BroadcastsInDim S2x256 (![0, 1] : Fin 2 → Fin S2x256.rank)
  shapeCasts_S1x400_S2x200 : S1x400.ShapeCasts S2x200
  inb_S128x200_S128x200_0_0 : ∀ a, (![0, 0] : Fin 2 → Nat) a + S128x200.size a ≤ S128x200.size a
  h_S128x200 : 0 < S128x200.numel
  shapeCasts_S128x200_S128x200x1 : S128x200.ShapeCasts S128x200x1
  iota_S128x200x128_d2_w32 : S128x200x128.Iotas .tc 32 [2]
  broadcasts_S128x200x1_S128x200x128 : S128x200x1.Broadcasts S128x200x128
  natLt_1_32 : 1 < 32
  bitsLt_bf16_f32 : FTy.bits .bf16 < FTy.bits .f32
  inb_S200x256_S200x128_0_0 : ∀ a, (![0, 0] : Fin 2 → Nat) a + S200x128.size a ≤ S200x256.size a
  h_S200x128 : 0 < S200x128.numel
  shapeCasts_S200x128_S200x128 : S200x128.ShapeCasts S200x128
  shapeCasts_S200x128_S1x200x128 : S200x128.ShapeCasts S1x200x128
  shapeCasts_S1x200x128_S1x200x128 : S1x200x128.ShapeCasts S1x200x128
  broadcasts_S1x200x128_S128x200x128 : S1x200x128.Broadcasts S128x200x128
  reduces_S128x200x128_S128x200 : S128x200x128.Reduces [2] S128x200
  inb_S200x256_S200x128_0_128 : ∀ a, (![0, 128] : Fin 2 → Nat) a + S200x128.size a ≤ S200x256.size a
  reduces_S128x200_S128 : S128x200.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S2x200_S2x256_S200x256_0_0_1_1_n_n_wf : DotDims.WF S2x200 S2x256 S200x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S131072x200.size a
  hwx0_0 : ∀ i : grid0.Coords, EltTy.bits .i32 = 32 ∨ (Rect.block (s := S131072x200) S128x200.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x256.size a ≤ S200x256.size a
  hwx0_1 : ∀ i : grid0.Coords, EltTy.bits .f32 = 32 ∨ (Rect.block (s := S200x256) S200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S131072x1.size a
  hwx0_3 : ∀ i : grid0.Coords, EltTy.bits .f32 = 32 ∨ (Rect.block (s := S131072x1) S128x1.size (cc0_transform_3 i) (hinb0_3 i)).WholeWords (EltTy.packing .f32)

variable [Facts₀]

def dot_S2x200_S2x256_S200x256_0_0_1_1_n_n : DotDims S2x200 S2x256 S200x256 where
  lhsContracting := [0]
  rhsContracting := [0]
  lhsNonContracting := [1]
  rhsNonContracting := [1]
  lhsBatch := []
  rhsBatch := []
  wf := dot_S2x200_S2x256_S200x256_0_0_1_1_n_n_wf

abbrev win0_0 : Pipeline.Window sig grid0 :=
  Pipeline.Window.ofSpec (Memref.whole main_arg0) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S200x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x200 : Shape := ⟨2, ![131072, 200]⟩
abbrev S2x256 : Shape := ⟨2, ![2, 256]⟩
abbrev S2 : Shape := ⟨1, ![2]⟩
abbrev S1x400 : Shape := ⟨2, ![1, 400]⟩
abbrev S1 : Shape := ⟨1, ![1]⟩
abbrev S256x2 : Shape := ⟨2, ![256, 2]⟩
abbrev S_ : Shape := ⟨0, ![]⟩
abbrev S131072x200x1 : Shape := ⟨3, ![131072, 200, 1]⟩
abbrev S131072x200x2 : Shape := ⟨3, ![131072, 200, 2]⟩
abbrev S1x1x2 : Shape := ⟨3, ![1, 1, 2]⟩
abbrev S131072x2x200 : Shape := ⟨3, ![131072, 2, 200]⟩
abbrev S131072x400 : Shape := ⟨2, ![131072, 400]⟩
abbrev S400x1 : Shape := ⟨2, ![400, 1]⟩
abbrev S131072x1 : Shape := ⟨2, ![131072, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S131072x200, .i32⟩
  | .hbm, ⟨1, _⟩ => ⟨S2x256, .f32⟩
  | .hbm, ⟨2, _⟩ => ⟨S2, .f32⟩
  | .hbm, ⟨3, _⟩ => ⟨S1x400, .f32⟩
  | .hbm, ⟨4, _⟩ => ⟨S1, .f32⟩
  | .hbm, ⟨5, _⟩ => ⟨S256x2, .f32⟩
  | .hbm, ⟨6, _⟩ => ⟨S_, .i32⟩
  | .hbm, ⟨7, _⟩ => ⟨S131072x200, .i32⟩
  | .hbm, ⟨8, _⟩ => ⟨S131072x200, .i1⟩
  | .hbm, ⟨9, _⟩ => ⟨S_, .i32⟩
  | .hbm, ⟨10, _⟩ => ⟨S131072x200, .i32⟩
  | .hbm, ⟨11, _⟩ => ⟨S131072x200, .i32⟩
  | .hbm, ⟨12, _⟩ => ⟨S131072x200, .i32⟩
  | .hbm, ⟨13, _⟩ => ⟨S131072x200x1, .i32⟩
  | .hbm, ⟨14, _⟩ => ⟨S131072x200x2, .f32⟩
  | .hbm, ⟨15, _⟩ => ⟨S1x1x2, .f32⟩
  | .hbm, ⟨16, _⟩ => ⟨S131072x200x2, .f32⟩
  | .hbm, ⟨17, _⟩ => ⟨S131072x200x2, .f32⟩
  | .hbm, ⟨18, _⟩ => ⟨S131072x200x2, .f32⟩
  | .hbm, ⟨19, _⟩ => ⟨S131072x2x200, .f32⟩
  | .hbm, ⟨20, _⟩ => ⟨S131072x400, .f32⟩
  | .hbm, ⟨21, _⟩ => ⟨S400x1, .f32⟩
  | .hbm, ⟨22, _⟩ => ⟨S131072x1, .f32⟩
  | .hbm, ⟨23, _⟩ => ⟨S1x1, .f32⟩
  | .hbm, ⟨24, _⟩ => ⟨S131072x1, .f32⟩
  | .hbm, ⟨25, _⟩ => ⟨S131072x1, .f32⟩
  | .hbm, ⟨26, _⟩ => ⟨S131072x1, .f32⟩
  | .hbm, ⟨27, _⟩ => ⟨S131072x1, .f32⟩
  | .hbm, ⟨28, _⟩ => ⟨S_, .f32⟩
  | .hbm, ⟨29, _⟩ => ⟨S131072x1, .f32⟩
  | .hbm, ⟨30, _⟩ => ⟨S131072x1, .f32⟩
  | .hbm, ⟨31, _⟩ => ⟨S_, .f32⟩
  | .hbm, ⟨32, _⟩ => ⟨S131072x1, .f32⟩
  | .hbm, ⟨33, _⟩ => ⟨S131072x1, .f32⟩
  | _, _ => ⟨S131072x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  transposes_S2x256_S256x2_1_0 : S2x256.Transposes [1, 0] S256x2
  bcast_S_S131072x200 : S_.BroadcastsInDim S131072x200 (![] : Fin 0 → Fin S131072x200.rank)
  bcast_S131072x200_S131072x200x1_0_1 : S131072x200.BroadcastsInDim S131072x200x1 (![0, 1] : Fin 2 → Fin S131072x200x1.rank)
  bcast_S2_S1x1x2_2 : S2.BroadcastsInDim S1x1x2 (![2] : Fin 1 → Fin S1x1x2.rank)
  bcast_S1x1x2_S131072x200x2_0_1_2 : S1x1x2.BroadcastsInDim S131072x200x2 (![0, 1, 2] : Fin 3 → Fin S131072x200x2.rank)
  transposes_S131072x200x2_S131072x2x200_0_2_1 : S131072x200x2.Transposes [0, 2, 1] S131072x2x200
  shapeCasts_S131072x2x200_S131072x400 : S131072x2x200.ShapeCasts S131072x400
  transposes_S1x400_S400x1_1_0 : S1x400.Transposes [1, 0] S400x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  gather_S256x2_S131072x200x1_S131072x200x2_2_0_n_n_0_2_12_wf : GatherDims.WF S256x2 S131072x200x1 S131072x200x2 [2] [0] [] [0] [] 2 ![1, 2]
  dot_S131072x400_S400x1_S131072x1_1_0_0_1_n_n_wf : DotDims.WF S131072x400 S400x1 S131072x1 [1] [0] [0] [1] [] []

variable [Facts₀]

def gather_S256x2_S131072x200x1_S131072x200x2_2_0_n_n_0_2_12 : GatherDims S256x2 S131072x200x1 S131072x200x2 where
  offsetDims := [2]
  collapsedSliceDims := [0]
  operandBatchingDims := []
  startIndicesBatchingDims := []
  startIndexMap := [0]
  indexVectorDim := 2
  sliceSizes := ![1, 2]
  wf := gather_S256x2_S131072x200x1_S131072x200x2_2_0_n_n_0_2_12_wf
def dot_S131072x400_S400x1_S131072x1_1_0_0_1_n_n : DotDims S131072x400 S400x1 S131072x1 where
  lhsContracting := [1]
  rhsContracting := [0]
  lhsNonContracting := [0]
  rhsNonContracting := [1]
  lhsBatch := []
  rhsBatch := []
  wf := dot_S131072x400_S400x1_S131072x1_1_0_0_1_n_n_wf

class Facts : Prop extends Facts₀ where

variable [Facts]
-- ==== Proof.Score.lean ====
/-
  The function both programs compute, and the extended-real algebra that joins their two arrangements of it.

  A sample is a row of 200 history words, each naming one of 256 table slots. Filter f's hidden activation at a slot s is
  tanh (c1_w[f, s] + c1_b[f]); a sample's score is the sum over the two filters f and the 200 history positions l of
  the activation at the slot the word at l names, weighted by the second layer's weight at the filter-major column
  f * 200 + l; the output is the logistic function of score + l2_b.

  The kernel reaches the score through a one-hot selection per history position (a sum over 128 lanes, twice, of a 0/1
  indicator times a table entry); the reference through one contraction over the 400 filter-major columns. The lemmas
  below are what identifies them: a sum of indicator times entry selects the entry (products with 0 and 1 and sums are
  the commutative monoid's on the extended reals, so no finiteness is used), and a sum over 400 columns is the double
  sum over filter and position.
-/
import Idealize.ShloMosaic.Lib.ValueIdx
import Idealize.ShloMosaic.PureOps.Ideal.Laws

noncomputable section

open scoped BigOperators

namespace Cert.Score

open Idealize.ShloMosaic Idealize.ShloMosaic.ValueIdx

/-! ## The specification -/

/-- The table slot a history word names (its value, for a word below 256). -/
def slot (w : BitVec 32) : Fin 256 := ⟨w.toNat % 256, Nat.mod_lt _ (by decide)⟩

theorem slot_val {w : BitVec 32} (h : w.toNat < 256) : (slot w).val = w.toNat := Nat.mod_eq_of_lt h

/-- The column of the flattened second-layer weight for filter f at history position l (filter-major). -/
def wcol (f : Fin 2) (l : Fin 200) : Fin 400 := ⟨f.val * 200 + l.val, by omega⟩

/-- Filter f's hidden activation at table slot s. -/
def act (c1w : (⟨2, ![2, 256]⟩ : Shape).Idx → EReal) (c1b : (⟨1, ![2]⟩ : Shape).Idx → EReal) (f : Fin 2) (s : Fin 256) : EReal :=
  Ideal.tanh (c1w (ix2 f s) + c1b (ix1 f))

/-- Sample b's score. -/
def score (seq : (⟨2, ![131072, 200]⟩ : Shape).Idx → BitVec 32) (c1w : (⟨2, ![2, 256]⟩ : Shape).Idx → EReal)
    (c1b : (⟨1, ![2]⟩ : Shape).Idx → EReal) (l2w : (⟨2, ![1, 400]⟩ : Shape).Idx → EReal) (b : Fin 131072) : EReal :=
  ∑ f : Fin 2, ∑ l : Fin 200, act c1w c1b f (slot (seq (ix2 b l))) * l2w (ix2 (0 : Fin 1) (wcol f l))

/-- The whole result array: the logistic function of each sample's score plus the bias. -/
def prob (seq : (⟨2, ![131072, 200]⟩ : Shape).Idx → BitVec 32) (c1w : (⟨2, ![2, 256]⟩ : Shape).Idx → EReal)
    (c1b : (⟨1, ![2]⟩ : Shape).Idx → EReal) (l2w : (⟨2, ![1, 400]⟩ : Shape).Idx → EReal)
    (l2b : (⟨1, ![1]⟩ : Shape).Idx → EReal) : (⟨2, ![131072, 1]⟩ : Shape).Idx → EReal :=
  fun i => Ideal.logistic (score seq c1w c1b l2w (i 0) + l2b (ix1 (0 : Fin 1)))

/-! ## A one-hot sum selects -/

/-- The 0/1 indicator of a comparison bit, as the kernel builds it: the bit zero-extended to a word and converted. -/
theorem bit_to_real (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  unfold IntOp.cmpi
  by_cases h : a = b
  · subst h; simp
  · have : (a == b) = false := by simpa using h
    simp [this, h]

/-- A sum over the lanes of indicator-of-one-lane times entry is the entry at that lane. -/
theorem sum_ind_mul {n : Nat} (s : Fin n) (g : Fin n → EReal) :
    ∑ j : Fin n, (if s = j then (1 : EReal) else 0) * g j = g s := by
  rw [Finset.sum_eq_single s]
  · rw [if_pos rfl, one_mul]
  · intro j _ hj; rw [if_neg (Ne.symm hj), zero_mul]
  · intro h; exact absurd (Finset.mem_univ s) h

/-- … and is zero when the indicator names no lane. -/
theorem sum_ind_mul_none {n : Nat} (p : Fin n → Prop) [DecidablePred p] (hp : ∀ j, ¬ p j) (g : Fin n → EReal) :
    ∑ j : Fin n, (if p j then (1 : EReal) else 0) * g j = 0 :=
  Finset.sum_eq_zero fun j _ => by rw [if_neg (hp j), zero_mul]

/-- THE SELECTION over the two 128-lane halves of a 256-entry table row: from zero, the low half's one-hot sum and
    then the high half's add up to the entry at the slot. -/
theorem select_halves (s : Fin 256) (C : Fin 256 → EReal) :
    (0 + ∑ j : Fin 128, (if s.val = j.val then (1 : EReal) else 0) * C ⟨j.val, by omega⟩)
      + ∑ j : Fin 128, (if s.val = j.val + 128 then (1 : EReal) else 0) * C ⟨j.val + 128, by omega⟩ = C s := by
  by_cases h : s.val < 128
  · have e1 : ∑ j : Fin 128, (if s.val = j.val then (1 : EReal) else 0) * C ⟨j.val, by omega⟩ = C s := by
      have := sum_ind_mul (⟨s.val, h⟩ : Fin 128) (fun j => C ⟨j.val, by omega⟩)
      refine Eq.trans (Finset.sum_congr rfl fun j _ => ?_) this
      congr 1
      exact if_congr ⟨fun e => Fin.ext e, fun e => congrArg Fin.val e⟩ rfl rfl
    have e2 : ∑ j : Fin 128, (if s.val = j.val + 128 then (1 : EReal) else 0) * C ⟨j.val + 128, by omega⟩ = 0 :=
      sum_ind_mul_none (fun j : Fin 128 => s.val = j.val + 128) (fun j => by omega) _
    rw [e1, e2, zero_add, add_zero]
  · have hs : s.val - 128 < 128 := by have := s.isLt; omega
    have e1 : ∑ j : Fin 128, (if s.val = j.val then (1 : EReal) else 0) * C ⟨j.val, by omega⟩ = 0 :=
      sum_ind_mul_none (fun j : Fin 128 => s.val = j.val) (fun j => by have := j.isLt; omega) _
    have e2 : ∑ j : Fin 128, (if s.val = j.val + 128 then (1 : EReal) else 0) * C ⟨j.val + 128, by omega⟩ = C s := by
      have := sum_ind_mul (⟨s.val - 128, hs⟩ : Fin 128) (fun j => C ⟨j.val + 128, by omega⟩)
      refine Eq.trans (Finset.sum_congr rfl fun j _ => ?_) (this.trans ?_)
      · congr 1
        exact if_congr ⟨fun e => Fin.ext (by show s.val - 128 = j.val; omega), fun e => by
          have : s.val - 128 = j.val := congrArg Fin.val e
          omega⟩ rfl rfl
      · exact congrArg C (Fin.ext (by show s.val - 128 + 128 = s.val; omega))
    rw [e1, e2, add_zero, zero_add]

/-! ## History words below 256, and the constant one -/

/-- A word below 256 read signed is its value. -/
theorem toInt_of_lt {w : BitVec 32} (h : w.toNat < 256) : w.toInt = (w.toNat : ℤ) := by
  rw [BitVec.toInt_eq_toNat_cond, if_pos (by omega)]

/-- It is not negative: the signed comparison with zero is the zero bit … -/
theorem not_slt_zero {w : BitVec 32} (h : w.toNat < 256) : IntOp.cmpi .slt w 0#32 = 0#1 := by
  unfold IntOp.cmpi
  have : w.slt 0#32 = false := by
    rw [BitVec.slt, toInt_of_lt h]; simp
  rw [this]; rfl

/-- … and the clamp into [0, 255] of its signed reading leaves its value. -/
theorem clamp_of_lt {w : BitVec 32} (h : w.toNat < 256) : min w.toInt.toNat (256 - 1) = w.toNat := by
  rw [toInt_of_lt h, Int.toNat_natCast]; omega

/-- A word is lane j's word of the low half's iota exactly when its value is j … -/
theorem eq_lane_lo_iff (w : BitVec 32) (j : Fin 128) : w = IntOp.addi (BitVec.ofNat 32 j.val) 0#32 ↔ w.toNat = j.val := by
  unfold IntOp.addi
  rw [BitVec.add_zero]
  constructor
  · rintro rfl; rw [BitVec.toNat_ofNat]; exact Nat.mod_eq_of_lt (by have := j.isLt; omega)
  · intro e; apply BitVec.eq_of_toNat_eq; rw [BitVec.toNat_ofNat, e]; exact (Nat.mod_eq_of_lt (by have := j.isLt; omega)).symm

/-- … and lane j's word of the high half's (the iota plus 128) exactly when its value is j + 128. -/
theorem eq_lane_hi_iff (w : BitVec 32) (j : Fin 128) : w = IntOp.addi (BitVec.ofNat 32 j.val) 128#32 ↔ w.toNat = j.val + 128 := by
  unfold IntOp.addi
  have e128 : BitVec.ofNat 32 j.val + 128#32 = BitVec.ofNat 32 (j.val + 128) := by
    apply BitVec.eq_of_toNat_eq; simp [BitVec.toNat_add, BitVec.toNat_ofNat]
  rw [e128]
  constructor
  · rintro rfl; rw [BitVec.toNat_ofNat]; exact Nat.mod_eq_of_lt (by have := j.isLt; omega)
  · intro e; apply BitVec.eq_of_toNat_eq; rw [BitVec.toNat_ofNat, e]; exact (Nat.mod_eq_of_lt (by have := j.isLt; omega)).symm

/-- The pattern of the f32 constant 1.0 denotes 1. -/
theorem one_f32 : Ideal.ofBits .f32 0x3F800000#32 = 1 := IdealRules.sign_bit.ideal_onePat .f32

/-! ## The 400 filter-major columns are the filters' 200 positions -/

/-- A sum over the 400 columns is the double sum over filter and history position. -/
theorem sum_cols (g : Fin 400 → EReal) : ∑ k : Fin 400, g k = ∑ f : Fin 2, ∑ l : Fin 200, g (wcol f l) := by
  rw [Fin.sum_univ_two]
  have h := Fin.sum_univ_add (a := 200) (b := 200) (f := g)
  refine h.trans ?_
  congr 1

end Cert.Score

end
-- ==== Proof.KernelPoint.lean ====
/-
  One row of the kernel body's result, read at an index.

  The body works on a block of 128 samples. For sample p and history position l it compares the history word with the
  lane numbers 0 … 127 (and then 128 … 255), turns the comparison bits into 0/1, multiplies lane by lane with the two
  128-lane halves of row l of the staged table, sums the lanes, adds the two halves' sums from zero, sums over the
  200 positions, adds the bias and applies the logistic function. With the table's two halves read as one row
  C l : Fin 256 → EReal, and the history word below 256, each position contributes exactly C l (the word's slot)
  (Score.lean's select_halves), so the row's result is logistic (sum over l of C l (slot) + bias).

  Every stage is read at an index over variables of the literal vector types; the format changes are the identity on
  the extended reals.
-/
import proofs.«403384_j13881334301020_2_alg».proof.Proof.Gen.KernelIdeal.Skeleton
import proofs.«403384_j13881334301020_2_alg».proof.Proof.Score
import Idealize.ShloMosaic.Lib.Pipeline.Value

noncomputable section

open scoped BigOperators

namespace Cert.KernelIdeal.Point

open Cert.KernelIdeal Cert.KernelIdeal.Gen
open Idealize.ShloMosaic Idealize.ShloMosaic.ValueIdx Cert.Score

/-! ## The stages, each at an index -/

/-- The history words laid along the lanes: entry (p, l, j) is the word at (p, l). -/
theorem word_lane (x0 : Vec Ideal S128x200 .i32) (h1 : S128x200.ShapeCasts S128x200x1) (h2 : S128x200x1.Broadcasts S128x200x128)
    (p : Fin 128) (l : Fin 200) (j : Fin 128) :
    broadcastTo S128x200x128 (shapeCast S128x200x1 x0 h1) h2 (ix3 p l j) = x0 (ix2 p l) := by
  refine (broadcastTo_apply _ h2 (ix3 p l j) (ix3 p l (0 : Fin 1)) (fun a => ?_)).trans
    (shapeCast_apply x0 h1 (ix3 p l (0 : Fin 1)) (ix2 p l) ?_)
  · match a with
    | ⟨0, _⟩ => show p.val = if (128 : Nat) = 1 then 0 else p.val; rw [if_neg (by decide)]
    | ⟨1, _⟩ => show l.val = if (200 : Nat) = 1 then 0 else l.val; rw [if_neg (by decide)]
    | ⟨2, _⟩ => show 0 = if (1 : Nat) = 1 then 0 else j.val; rw [if_pos rfl]
  · rw [Shape.rowMajor_val_two, Shape.rowMajor_val_three]
    show p.val * 200 + l.val = (p.val * 200 + l.val) * 1 + 0
    omega

/-- The one-hot entry at (p, l, j), for the half whose lane numbers start at k: 1 when the word at (p, l) is lane j's
    number j + k, else 0 (the comparison bit, widened, converted; the narrowing to bf16 is the identity). -/
theorem onehot_lane (x0 : Vec Ideal S128x200 .i32) (h1 : S128x200.ShapeCasts S128x200x1) (h2 : S128x200x1.Broadcasts S128x200x128)
    (h3 : S128x200x128.Iotas .tc 32 [2]) (h4 : 1 < 32) (hb : FTy.bits .bf16 < FTy.bits .f32) (k : BitVec 32)
    (p : Fin 128) (l : Fin 200) (j : Fin 128) :
    truncf .bf16 (sitofp (F := Ideal) .f32 (extui 32 (cmpi .eq (broadcastTo S128x200x128 (shapeCast S128x200x1 x0 h1) h2)
        (addi (iota .tc S128x200x128 32 [2] h3) (broadcast S128x200x128 k))) h4)) hb (ix3 p l j)
      = if x0 (ix2 p l) = IntOp.addi (BitVec.ofNat 32 j.val) k then (1 : EReal) else 0 := by
  show FloatOps.sitofp (F := Ideal) .f32 ((IntOp.cmpi .eq (broadcastTo S128x200x128 (shapeCast S128x200x1 x0 h1) h2 (ix3 p l j))
      (IntOp.addi (iota .tc S128x200x128 32 [2] h3 (ix3 p l j)) k)).setWidth 32) = _
  rw [word_lane, iota_single_apply, bit_to_real]

/-- A 128-lane half of the table laid over the samples: entry (p, l, j) is the half's entry (l, j). -/
theorem table_lane (v : Vec Ideal S200x128 .f32) (h1 : S200x128.ShapeCasts S200x128) (hb : FTy.bits .bf16 < FTy.bits .f32)
    (h2 : S200x128.ShapeCasts S1x200x128) (h3 : S1x200x128.ShapeCasts S1x200x128) (h4 : S1x200x128.Broadcasts S128x200x128)
    (p : Fin 128) (l : Fin 200) (j : Fin 128) :
    (broadcastTo S128x200x128 (shapeCast S1x200x128 (shapeCast S1x200x128 (truncf (F := Ideal) .bf16 (shapeCast S200x128 v h1) hb) h2) h3) h4 (ix3 p l j) : EReal)
      = v (ix2 l j) := by
  refine (broadcastTo_apply _ h4 (ix3 p l j) (ix3 (0 : Fin 1) l j) (fun a => ?_)).trans ?_
  · match a with
    | ⟨0, _⟩ => show 0 = if (1 : Nat) = 1 then 0 else p.val; rw [if_pos rfl]
    | ⟨1, _⟩ => show l.val = if (200 : Nat) = 1 then 0 else l.val; rw [if_neg (by decide)]
    | ⟨2, _⟩ => show j.val = if (128 : Nat) = 1 then 0 else j.val; rw [if_neg (by decide)]
  · rw [shapeCast_self]
    refine (shapeCast_apply _ h2 (ix3 (0 : Fin 1) l j) (ix2 l j) ?_).trans ?_
    · rw [Shape.rowMajor_val_two, Shape.rowMajor_val_three]
      show l.val * 128 + j.val = (0 * 200 + l.val) * 128 + j.val
      omega
    · show shapeCast S200x128 v h1 (ix2 l j) = v (ix2 l j)
      rw [shapeCast_self]

/-- The sum over the 128 lanes, at (p, l). -/
theorem lane_sum (A : FVec Ideal S128x200x128 .f32) (hr : S128x200x128.Reduces [2] S128x200) (hφ : FKind.Formats .f32)
    (hacc : (0x00000000#32 : BitVec 32) = FKind.add.neutral .f32 hφ) (p : Fin 128) (l : Fin 200) :
    multiReduction .add [2] S128x200 A 0x00000000#32 hr hφ hacc (ix2 p l) = ∑ j : Fin 128, A (ix3 p l j) := by
  refine (Ideal.multiReduction_add_single A _ hr hφ hacc (ix2 p l)).trans ?_
  refine Finset.sum_congr rfl fun j _ => congrArg A (funext fun a => ?_)
  match a with
  | ⟨0, _⟩ => rfl
  | ⟨1, _⟩ => rfl
  | ⟨2, _⟩ => rfl

/-- The sum over the 200 history positions, at sample p. -/
theorem position_sum (X : FVec Ideal S128x200 .f32) (hr : S128x200.Reduces [1] S128) (hφ : FKind.Formats .f32)
    (hacc : (0x00000000#32 : BitVec 32) = FKind.add.neutral .f32 hφ) (p : Fin 128) :
    multiReduction .add [1] S128 X 0x00000000#32 hr hφ hacc (ix1 p) = ∑ l : Fin 200, X (ix2 p l) := by
  refine (Ideal.multiReduction_add_single X _ hr hφ hacc (ix1 p)).trans ?_
  refine Finset.sum_congr rfl fun l _ => congrArg X (funext fun a => ?_)
  match a with
  | ⟨0, _⟩ => rfl
  | ⟨1, _⟩ => rfl

/-- The per-sample vector viewed as a column: entry (p, 0) is entry p. -/
theorem column_cast (Y : FVec Ideal S128 .f32) (h : S128.ShapeCasts S128x1) (p : Fin 128) (z : Fin 1) :
    shapeCast S128x1 Y h (ix2 p z) = Y (ix1 p) := by
  refine shapeCast_apply Y h (ix2 p z) (ix1 p) ?_
  rw [Shape.rowMajor_val_one, Shape.rowMajor_val_two]
  show p.val = p.val * 1 + z.val
  have := z.isLt; omega

/-- The bias laid over the samples. -/
theorem bias_lane (v : Vec Ideal S1 .f32) (h1 : S1.ShapeCasts S1x1) (h2 : S1x1.Broadcasts S128x1) (p : Fin 128) (z : Fin 1) :
    broadcastTo S128x1 (shapeCast S1x1 v h1) h2 (ix2 p z) = v (ix1 (0 : Fin 1)) := by
  refine (broadcastTo_apply _ h2 (ix2 p z) (ix2 (0 : Fin 1) (0 : Fin 1)) (fun a => ?_)).trans
    (shapeCast_apply v h1 (ix2 (0 : Fin 1) (0 : Fin 1)) (ix1 (0 : Fin 1)) ?_)
  · match a with
    | ⟨0, _⟩ => show 0 = if (1 : Nat) = 1 then 0 else p.val; rw [if_pos rfl]
    | ⟨1, _⟩ => show 0 = if (1 : Nat) = 1 then 0 else z.val; rw [if_pos rfl]
  · rw [Shape.rowMajor_val_one, Shape.rowMajor_val_two]
    show 0 = 0 * 1 + 0
    rfl

/-! ## The row -/

/-- THE BODY'S RESULT AT SAMPLE p of the block, when the block's history words are below 256 and the two loaded halves
    of the table are the halves of the rows C l: the logistic function of the sum over the positions of the row's entry
    at the word's slot, plus the bias. -/
theorem pay_apply (x0 : Vec Ideal S128x200 .i32) (v11 v29 : Vec Ideal S200x128 .f32) (v41 : Vec Ideal S1 .f32)
    (hx : ∀ i, (x0 i).toNat < 256) (C : Fin 200 → Fin 256 → EReal)
    (hlo : ∀ (l : Fin 200) (j : Fin 128), v11 (ix2 l j) = C l ⟨j.val, by omega⟩)
    (hhi : ∀ (l : Fin 200) (j : Fin 128), v29 (ix2 l j) = C l ⟨j.val + 128, by omega⟩) (p : Fin 128) (z : Fin 1) :
    k0_pay1 (F := Ideal) x0 v11 v29 v41 (ix2 p z)
      = Ideal.logistic ((∑ l : Fin 200, C l (slot (x0 (ix2 p l)))) + v41 (ix1 (0 : Fin 1))) := by
  unfold k0_pay1
  dsimp only
  show Ideal.logistic (shapeCast S128x1 _ _ (ix2 p z) + broadcastTo S128x1 _ _ (ix2 p z)) = _
  refine congrArg Ideal.logistic (congrArg₂ (· + ·) ?_ (bias_lane v41 _ _ p z))
  refine (column_cast _ _ p z).trans ((position_sum _ _ _ _ p).trans (Finset.sum_congr rfl fun l _ => ?_))
  have hw := hx (ix2 p l)
  show (Ideal.ofBits .f32 0x00000000#32 + multiReduction .add [2] S128x200 _ _ _ _ _ (ix2 p l))
      + multiReduction .add [2] S128x200 _ _ _ _ _ (ix2 p l) = _
  trans ((0 + ∑ j : Fin 128, (if (slot (x0 (ix2 p l))).val = j.val then (1 : EReal) else 0) * C l ⟨j.val, by omega⟩)
      + ∑ j : Fin 128, (if (slot (x0 (ix2 p l))).val = j.val + 128 then (1 : EReal) else 0) * C l ⟨j.val + 128, by omega⟩)
  · refine congrArg₂ (· + ·) (congrArg₂ (· + ·) Ideal.ofBits_zero_f32
        ((lane_sum _ _ _ _ p l).trans (Finset.sum_congr rfl fun j _ => ?_)))
      ((lane_sum _ _ _ _ p l).trans (Finset.sum_congr rfl fun j _ => ?_))
    · show (truncf (F := Ideal) .bf16 _ _ (ix3 p l j) : EReal) * (broadcastTo S128x200x128 _ _ (ix3 p l j) : EReal) = _
      rw [onehot_lane, table_lane, hlo]
      congr 1
      exact if_congr ((eq_lane_lo_iff _ j).trans (by rw [slot_val hw])) rfl rfl
    · show (truncf (F := Ideal) .bf16 _ _ (ix3 p l j) : EReal) * (broadcastTo S128x200x128 _ _ (ix3 p l j) : EReal) = _
      rw [onehot_lane, table_lane, hhi]
      congr 1
      exact if_congr ((eq_lane_hi_iff _ j).trans (by rw [slot_val hw])) rfl rfl
  · exact select_halves _ _

end Cert.KernelIdeal.Point

end
-- ==== Proof.ContribTable.lean ====
/-
  The table the kernel's region finds in its second window, read at an index.

  Before the region the host builds one [200, 256] table from the parameters: the hidden activations
  tanh (c1_w + c1_b laid along the slots), a [2, 256] array, contracted over the two filters with the second-layer
  weight reshaped [2, 200] (filter-major: entry (f, l) is column f * 200 + l). Its entry at (l, s) is therefore the sum
  over the filters f of weight (column f * 200 + l) times activation (f, s): the contribution of history position l
  when its word names slot s.
-/
import proofs.«403384_j13881334301020_2_alg».proof.Proof.Gen.KernelIdeal.Frame
import proofs.«403384_j13881334301020_2_alg».proof.Proof.Score
import Idealize.ShloMosaic.Lib.StableHlo.Run
import Idealize.ShloMosaic.Lib.Pipeline.Value
import Idealize.ShloMosaic.PureOps.Ideal.Laws

noncomputable section

open scoped BigOperators

namespace Cert.KernelIdeal.Table

open Cert.KernelIdeal Cert.KernelIdeal.Gen
open Idealize.ShloMosaic Idealize.ShloMosaic.TcCoe Idealize.SL.Sem Idealize.ShloMosaic.StableHlo
open Idealize.ShloMosaic.ValueIdx Cert.Score

variable (m : (ℓ : Loc nD τ sig) → Buf (Elt Ideal) ℓ)

/-! ## The argument arrays, by their literal types -/

/-- The history words. -/
abbrev seqArr (c : Dev nD) : (⟨2, ![131072, 200]⟩ : Shape).Idx → BitVec 32 := m ((c : Thread nD τ).loc main_arg0)
/-- The first layer's weight, its bias, the second layer's weight, its bias. -/
abbrev c1wArr (c : Dev nD) : (⟨2, ![2, 256]⟩ : Shape).Idx → EReal := m ((c : Thread nD τ).loc main_arg1)
abbrev c1bArr (c : Dev nD) : (⟨1, ![2]⟩ : Shape).Idx → EReal := m ((c : Thread nD τ).loc main_arg2)
abbrev l2wArr (c : Dev nD) : (⟨2, ![1, 400]⟩ : Shape).Idx → EReal := m ((c : Thread nD τ).loc main_arg3)
abbrev l2bArr (c : Dev nD) : (⟨1, ![1]⟩ : Shape).Idx → EReal := m ((c : Thread nD τ).loc main_arg4)

/-! ## The contraction over the two filters, at an index -/

theorem lhs_filter (i : S200x256.Idx) (q : dot_S2x200_S2x256_S200x256_0_0_1_1_n_n.contr.Idx) :
    (dot_S2x200_S2x256_S200x256_0_0_1_1_n_n.lhsIdx i q 0).val = (q ⟨0, by decide⟩).val :=
  dot_S2x200_S2x256_S200x256_0_0_1_1_n_n.lhsIdx_val_of_single rfl i q
theorem lhs_position (i : S200x256.Idx) (q : dot_S2x200_S2x256_S200x256_0_0_1_1_n_n.contr.Idx) :
    (dot_S2x200_S2x256_S200x256_0_0_1_1_n_n.lhsIdx i q 1).val = (i 0).val := by
  unfold DotDims.lhsIdx
  rw [dif_neg (show ¬(1 : Fin S2x200.rank) ∈ dot_S2x200_S2x256_S200x256_0_0_1_1_n_n.lhsBatch by decide),
    dif_pos (show (1 : Fin S2x200.rank) ∈ dot_S2x200_S2x256_S200x256_0_0_1_1_n_n.lhsNonContracting by decide)]
  rfl
theorem rhs_filter (i : S200x256.Idx) (q : dot_S2x200_S2x256_S200x256_0_0_1_1_n_n.contr.Idx) :
    (dot_S2x200_S2x256_S200x256_0_0_1_1_n_n.rhsIdx i q 0).val = (q ⟨0, by decide⟩).val :=
  dot_S2x200_S2x256_S200x256_0_0_1_1_n_n.rhsIdx_val_of_single rfl i q
theorem rhs_slot (i : S200x256.Idx) (q : dot_S2x200_S2x256_S200x256_0_0_1_1_n_n.contr.Idx) :
    (dot_S2x200_S2x256_S200x256_0_0_1_1_n_n.rhsIdx i q 1).val = (i 1).val := by
  unfold DotDims.rhsIdx
  rw [dif_neg (show ¬(1 : Fin S2x256.rank) ∈ dot_S2x200_S2x256_S200x256_0_0_1_1_n_n.rhsBatch by decide),
    dif_pos (show (1 : Fin S2x256.rank) ∈ dot_S2x200_S2x256_S200x256_0_0_1_1_n_n.rhsNonContracting by decide)]
  rfl

/-- The host's contraction at (l, s): the sum over the two filters of the left operand at (f, l) times the right at (f, s). -/
theorem contract_apply (W : FVec Ideal S2x200 .f32) (A : FVec Ideal S2x256 .f32) (l : Fin 200) (s : Fin 256) :
    Host.dotGeneral (F := Ideal) dot_S2x200_S2x256_S200x256_0_0_1_1_n_n none W A (ix2 l s)
      = ∑ f : Fin 2, W (ix2 f l) * A (ix2 f s) := by
  simp only [Host.dotGeneral]
  rw [Ideal.dotGeneral_apply, ← Equiv.sum_comp (ValueIdx.contrEquiv1 dot_S2x200_S2x256_S200x256_0_0_1_1_n_n 2 rfl rfl).symm]
  refine Finset.sum_congr rfl fun k _ => ?_
  have hk := ValueIdx.contrEquiv1_symm_val dot_S2x200_S2x256_S200x256_0_0_1_1_n_n 2 rfl rfl k
  have el : dot_S2x200_S2x256_S200x256_0_0_1_1_n_n.lhsIdx (ix2 l s)
      ((ValueIdx.contrEquiv1 dot_S2x200_S2x256_S200x256_0_0_1_1_n_n 2 rfl rfl).symm k) = ix2 k l := funext fun a => Fin.ext (by
    match a with
    | ⟨0, _⟩ => exact (lhs_filter _ _).trans hk
    | ⟨1, _⟩ => exact lhs_position _ _)
  have er : dot_S2x200_S2x256_S200x256_0_0_1_1_n_n.rhsIdx (ix2 l s)
      ((ValueIdx.contrEquiv1 dot_S2x200_S2x256_S200x256_0_0_1_1_n_n 2 rfl rfl).symm k) = ix2 k s := funext fun a => Fin.ext (by
    match a with
    | ⟨0, _⟩ => exact (rhs_filter _ _).trans hk
    | ⟨1, _⟩ => exact rhs_slot _ _)
  rw [el, er]

/-! ## The two factors at an index -/

/-- The reshaped weight at (f, l) is the flat weight at the filter-major column. -/
theorem weight_apply (x3 : (⟨2, ![1, 400]⟩ : Shape).Idx → EReal) (h : S1x400.ShapeCasts S2x200) (f : Fin 2) (l : Fin 200) :
    shapeCast S2x200 x3 h (ix2 f l) = x3 (ix2 (0 : Fin 1) (wcol f l)) := by
  refine shapeCast_apply x3 h (ix2 f l) (ix2 (0 : Fin 1) (wcol f l)) ?_
  rw [Shape.rowMajor_val_two, Shape.rowMajor_val_two]
  show 0 * 400 + (f.val * 200 + l.val) = f.val * 200 + l.val
  omega

/-- The activations at (f, s): tanh of the weight at (f, s) plus filter f's bias (laid along the slots). -/
theorem act_apply (x1 : (⟨2, ![2, 256]⟩ : Shape).Idx → EReal) (x2 : (⟨1, ![2]⟩ : Shape).Idx → EReal)
    (h1 : S2.BroadcastsInDim S2x1 (![0] : Fin 1 → Fin S2x1.rank)) (h2 : S2x1.BroadcastsInDim S2x256 (![0, 1] : Fin 2 → Fin S2x256.rank))
    (f : Fin 2) (s : Fin 256) :
    Host.tanh (F := Ideal) (φ := .f32) (addf (F := Ideal) (φ := .f32) x1 (broadcastInDim S2x256 ![0, 1] h2 (broadcastInDim S2x1 ![0] h1 x2))) (ix2 f s)
      = act x1 x2 f s := by
  show Ideal.tanh (x1 (ix2 f s) + broadcastInDim S2x256 ![0, 1] h2 (broadcastInDim S2x1 ![0] h1 x2) (ix2 f s)) = _
  unfold act
  congr 2
  refine (broadcastInDim_apply _ h2 _ (ix2 f s) (ix2 f (0 : Fin 1)) (fun a => ?_)).trans
    (broadcastInDim_apply _ h1 x2 (ix2 f (0 : Fin 1)) (ix1 f) (fun a => ?_))
  · match a with
    | ⟨0, _⟩ => show f.val = if (2 : Nat) = 1 then 0 else f.val; rw [if_neg (by decide)]
    | ⟨1, _⟩ => show 0 = if (1 : Nat) = 1 then 0 else s.val; rw [if_pos rfl]
  · match a with
    | ⟨0, _⟩ => show f.val = if (2 : Nat) = 1 then 0 else f.val; rw [if_neg (by decide)]

/-! ## The table -/

/-- The table's array as the region finds it, by its literal type. -/
abbrev tableArr (c : Dev nD) : (⟨2, ![200, 256]⟩ : Shape).Idx → EReal := V m c main_v5

/-- What the region finds there: the host stretch's operations on the parameters. -/
theorem table_eq (c : Dev nD) :
    tableArr m c
      = Host.dotGeneral (F := Ideal) (φ₁ := .f32) (φ₂ := .f32) dot_S2x200_S2x256_S200x256_0_0_1_1_n_n none
          (shapeCast S2x200 (l2wArr m c) shapeCasts_S1x400_S2x200)
          (Host.tanh (F := Ideal) (φ := .f32) (addf (F := Ideal) (φ := .f32) (c1wArr m c)
            (broadcastInDim S2x256 ![0, 1] bcast_S2x1_S2x256_0_1 (broadcastInDim S2x1 ![0] bcast_S2_S2x1_0 (c1bArr m c))))) := by
  dsimp only [tableArr, Gen.V, Gen.hostOps0]
  after_results
  rfl

/-- THE TABLE'S ENTRY at (l, s): position l's contribution when its word names slot s. -/
theorem table_apply (c : Dev nD) (l : Fin 200) (s : Fin 256) :
    tableArr m c (ix2 l s)
      = ∑ f : Fin 2, l2wArr m c (ix2 (0 : Fin 1) (wcol f l)) * act (c1wArr m c) (c1bArr m c) f s := by
  rw [table_eq, contract_apply]
  exact Finset.sum_congr rfl fun f _ => by rw [weight_apply, act_apply]

end Cert.KernelIdeal.Table

end
-- ==== Proof.KernelArray.lean ====
/-
  From the kernel's blocks to its whole result array.

  Grid point t works on samples t * 128 … t * 128 + 127: it stages that block of the history words, the whole table
  and the bias, and writes back block t of the result column. Sample p of the block is sample t * 128 + p of the
  array; its row of the body's result (KernelPoint.lean) is the logistic function of the sum over the history positions
  l of the table's entry (l, slot of the word at l) plus the bias; the table's entry is the sum over the filters of
  weight times activation (ContribTable.lean); exchanging the two sums and the factors gives the specification's score.
  The 1024 blocks tile the 131072 rows, so the array after the run is the specification at every index.
-/
import proofs.«403384_j13881334301020_2_alg».proof.Proof.Gen.KernelIdeal.Value
import proofs.«403384_j13881334301020_2_alg».proof.Proof.KernelPoint
import proofs.«403384_j13881334301020_2_alg».proof.Proof.ContribTable
import proofs.«403384_j13881334301020_2_alg».proof.Proof.Score

set_option maxRecDepth 16384

noncomputable section

open scoped BigOperators

namespace Cert.KernelIdeal.Whole

open Cert.KernelIdeal Cert.KernelIdeal.Gen Cert.KernelIdeal.Value Cert.KernelIdeal.Table Cert.KernelIdeal.Point
open Idealize.ShloMosaic Idealize.ShloMosaic.TcCoe Idealize.SL.Sem Idealize.ShloMosaic.ValueIdx Cert.Score
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a; rfl
theorem zeros2 : (![0, 0] : Fin 2 → Nat) = fun _ => 0 := funext fun a => by fin_cases a <;> rfl

/-- The printed index maps, decided over the 1024 grid points: the history words' and the result's blocks move with the
    point along the samples; the table's and the bias's stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 1024 := Nat.lt_of_lt_of_eq t.isLt N_0

/-- The kernel's arrangement of a sample's score — per history position, the table entry as a sum over the filters of
    weight times activation — is the specification's (the filters' sum outermost, activation times weight). -/
theorem score_by_position (seq : (⟨2, ![131072, 200]⟩ : Shape).Idx → BitVec 32) (c1w : (⟨2, ![2, 256]⟩ : Shape).Idx → EReal)
    (c1b : (⟨1, ![2]⟩ : Shape).Idx → EReal) (l2w : (⟨2, ![1, 400]⟩ : Shape).Idx → EReal) (b : Fin 131072) :
    ∑ l : Fin 200, ∑ f : Fin 2, l2w (ix2 (0 : Fin 1) (wcol f l)) * act c1w c1b f (slot (seq (ix2 b l)))
      = score seq c1w c1b l2w b := by
  unfold score
  rw [Finset.sum_comm]
  exact Finset.sum_congr rfl fun f _ => Finset.sum_congr rfl fun l _ => mul_comm _ _

/-- WHAT POINT t WRITES BACK is block t of the specification of the argument arrays, when every history word is a
    table slot. -/
theorem flushed_eq (c : Dev nD) (hseq : ∀ i, (seqArr m c i).toNat < 256) (t : Fin cfg0.N) :
    (dats m 0 c).flushed 3 t
      = ((cfg0.win 3).blk t).view.read (Elt Ideal) (prob (seqArr m c) (c1wArr m c) (c1bArr m c) (l2wArr m c) (l2bArr m c)) := by
  rw [Value.flushed3]
  unfold out0_3
  rw [View.canon_unit_zero zeros2]
  simp only [View.ld_unit_zero (S := S128x200) zeros2, View.ld_unit_zero (S := S1) zeros1]
  obtain ⟨e00, e01, e10, e11, e20, e30, e31⟩ := block_indices t
  have ht := point_lt t
  funext y
  obtain ⟨p, z, rfl⟩ : ∃ (p : Fin 128) (z : Fin 1), y = ix2 p z := ⟨y 0, y 1, eq_ix2 y⟩
  have hp := p.isLt
  show k0_pay1 (F := Ideal) (iblk m c 0 t) (View.ld (iblk m c 1 t) r0_1) (View.ld (iblk m c 1 t) r0_2) (iblk m c 2 t) (ix2 p z)
    = prob (seqArr m c) (c1wArr m c) (c1bArr m c) (l2wArr m c) (l2bArr m c) (((cfg0.win 3).blk t).view.emb (ix2 p z))
  -- sample p of the block is sample t * 128 + p of the arrays
  have hw : ∀ l : Fin 200, iblk m c 0 t (ix2 p l) = seqArr m c (ix2 (⟨t.val * 128 + p.val, by omega⟩ : Fin 131072) l) := fun l => by
    show V m c main_arg0 (((cfg0.win 0).blk t).view.emb (ix2 p l)) = _
    rw [V_main_arg0]
    refine congrArg (seqArr m c) (funext fun a => Fin.ext ?_)
    match a with
    | ⟨0, _⟩ => show win0_0.index t (0 : Fin 2) * 128 + 1 * p.val = t.val * 128 + p.val; rw [e00]; omega
    | ⟨1, _⟩ => show win0_0.index t (1 : Fin 2) * 200 + 1 * l.val = l.val; rw [e01]; omega
  have hx : ∀ i, (iblk m c 0 t i).toNat < 256 := fun i => by
    show (V m c main_arg0 (((cfg0.win 0).blk t).view.emb i)).toNat < 256
    rw [V_main_arg0]
    exact hseq _
  -- the two loaded halves of the staged table are the halves of the table's rows
  have hlo : ∀ (l : Fin 200) (j : Fin 128), View.ld (iblk m c 1 t) r0_1 (ix2 l j) = tableArr m c (ix2 l ⟨j.val, by omega⟩) := fun l j => by
    show V m c main_v5 (((cfg0.win 1).blk t).view.emb (r0_1.emb (ix2 l j))) = _
    refine congrArg (tableArr m c) (funext fun a => Fin.ext ?_)
    match a with
    | ⟨0, _⟩ => show win0_1.index t (0 : Fin 2) * 200 + 1 * (0 + 1 * l.val) = l.val; rw [e10]; omega
    | ⟨1, _⟩ => show win0_1.index t (1 : Fin 2) * 256 + 1 * (0 + 1 * j.val) = j.val; rw [e11]; omega
  have hhi : ∀ (l : Fin 200) (j : Fin 128), View.ld (iblk m c 1 t) r0_2 (ix2 l j) = tableArr m c (ix2 l ⟨j.val + 128, by omega⟩) := fun l j => by
    show V m c main_v5 (((cfg0.win 1).blk t).view.emb (r0_2.emb (ix2 l j))) = _
    refine congrArg (tableArr m c) (funext fun a => Fin.ext ?_)
    match a with
    | ⟨0, _⟩ => show win0_1.index t (0 : Fin 2) * 200 + 1 * (0 + 1 * l.val) = l.val; rw [e10]; omega
    | ⟨1, _⟩ => show win0_1.index t (1 : Fin 2) * 256 + 1 * (128 + 1 * j.val) = j.val + 128; rw [e11]; omega
  have hbias : iblk m c 2 t (ix1 (0 : Fin 1)) = l2bArr m c (ix1 (0 : Fin 1)) := by
    show V m c main_arg4 (((cfg0.win 2).blk t).view.emb (ix1 (0 : Fin 1))) = _
    rw [V_main_arg4]
    refine congrArg (l2bArr m c) (funext fun a => Fin.ext ?_)
    match a with
    | ⟨0, _⟩ => show win0_2.index t (0 : Fin 1) * 1 + 1 * 0 = 0; rw [e20]
  have hpos : ((cfg0.win 3).blk t).view.emb (ix2 p z) (0 : Fin 2) = (⟨t.val * 128 + p.val, by omega⟩ : Fin 131072) :=
    Fin.ext (by show win0_3.index t (0 : Fin 2) * 128 + 1 * p.val = t.val * 128 + p.val; rw [e30]; omega)
  refine (pay_apply (iblk m c 0 t) (View.ld (iblk m c 1 t) r0_1) (View.ld (iblk m c 1 t) r0_2) (iblk m c 2 t) hx
    (fun l s => tableArr m c (ix2 l s)) hlo hhi p z).trans ?_
  unfold prob
  rw [hpos, hbias]
  refine congrArg (fun x => Ideal.logistic (x + l2bArr m c (ix1 (0 : Fin 1)))) ?_
  refine Eq.trans (Finset.sum_congr rfl fun l _ => ?_) (score_by_position (seqArr m c) (c1wArr m c) (c1bArr m c) (l2wArr m c) _)
  rw [hw l, table_apply]

/-- An index of the result column is in point t's block iff each coordinate is in the block's range on its axis. -/
theorem mem_block (t : Fin cfg0.N) (i : S131072x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v6).slice (win0_3.rect t)).set ↔ _
  rw [View.set_slice_whole, Rect.mem_set_unit]
  exact Iff.rfl

/-- Every row of the result column is in the block of the point numbered row / 128. -/
theorem covered (i : S131072x1.Idx) : ∃ t : Fin cfg0.N, (cfg0.win 3).flush t = true ∧ i ∈ ((cfg0.win 3).blk t).view.set := by
  have hi0 : (i 0).val < 131072 := (i 0).isLt
  have hi1 : (i 1).val < 1 := (i 1).isLt
  have hN : (i 0).val / 128 < cfg0.N := Nat.lt_of_lt_of_eq (by omega) N_0.symm
  refine ⟨⟨(i 0).val / 128, hN⟩, flush0_3 _, ?_⟩
  obtain ⟨-, -, -, -, -, e30, e31⟩ := block_indices ⟨(i 0).val / 128, hN⟩
  rw [mem_block]
  intro a
  match a with
  | ⟨0, _⟩ =>
    show win0_3.index ⟨(i 0).val / 128, hN⟩ (0 : Fin 2) * 128 ≤ (i 0).val ∧ (i 0).val < win0_3.index ⟨(i 0).val / 128, hN⟩ (0 : Fin 2) * 128 + 128
    rw [e30]; show (i 0).val / 128 * 128 ≤ (i 0).val ∧ (i 0).val < (i 0).val / 128 * 128 + 128; omega
  | ⟨1, _⟩ =>
    show win0_3.index ⟨(i 0).val / 128, hN⟩ (1 : Fin 2) * 1 ≤ (i 1).val ∧ (i 1).val < win0_3.index ⟨(i 0).val / 128, hN⟩ (1 : Fin 2) * 1 + 1
    rw [e31]; omega

/-- THE RESULT ARRAY after the run is the specification of the argument arrays. -/
theorem final (c : Dev nD) (hseq : ∀ i, (seqArr m c i).toNat < 256) :
    (dats m 0 c).arrAt 3 cfg0.N = prob (seqArr m c) (c1wArr m c) (c1bArr m c) (l2wArr m c) (l2bArr m c) :=
  (dats m 0 c).arrAt_eq_of_cover 3 _ (fun t _ => flushed_eq m c hseq t) covered

/-- The kernel's run, read: every weakly fair execution terminates with the result array at the specification of the
    arguments, the arguments unchanged. -/
theorem run (hseq : ∀ c i, (seqArr m c i).toNat < 256) :
    θ_run defs (onTc (τ := τ) (main (F := Ideal))) ⟨m, fun _ => 0, ρ⟩ fun r => ∀ c : Dev nD,
      r.2.mem ((c : Thread nD τ).loc main_v6) = prob (seqArr m c) (c1wArr m c) (c1bArr m c) (l2wArr m c) (l2bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hseq c)), (h c).2⟩) (Value.run_blocks m ρ)

end Cert.KernelIdeal.Whole

end
-- ==== Proof.LibRowGather.lean ====
/-
  A general lemma: StableHLO's gather of ROWS of a table, read at an index.

  What jnp's table[idx] lowers to for a rank-2 table [N, C] and an integer array idx of shape [R, L]: a gather with the
  start indices laid out [R, L, 1] (the index vector on the last axis, of length one), the table's axis 0 collapsed and
  start-indexed, its axis 1 the result's one offset axis, slices of one row. The result element (r, l, c) is the
  table's element (row, c), where row is the start index idx[r, l, 0] read as a signed integer and clamped into
  [0, N - 1], as StableHLO's gather clamps every start index.
-/
import Idealize.ShloMosaic.Lib.ValueIdx

noncomputable section

namespace Cert.RowGather

open Idealize.ShloMosaic Idealize.ShloMosaic.ValueIdx

variable {α : Type}

/-- Those dimension numbers, for a table [N, C], start indices [R, L, 1] and a result [R, L, C]; the conditions wf are
    decided on a program's literal shapes. -/
abbrev rowDims (N C R L : Nat)
    (wf : GatherDims.WF ⟨2, ![N, C]⟩ ⟨3, ![R, L, 1]⟩ ⟨3, ![R, L, C]⟩ [2] [0] [] [0] [] 2 ![1, C]) :
    GatherDims ⟨2, ![N, C]⟩ ⟨3, ![R, L, 1]⟩ ⟨3, ![R, L, C]⟩ where
  offsetDims := [2]
  collapsedSliceDims := [0]
  operandBatchingDims := []
  startIndicesBatchingDims := []
  startIndexMap := [0]
  indexVectorDim := 2
  sliceSizes := ![1, C]
  wf := wf

section
variable {N C R L w : Nat}
  (wf : GatherDims.WF ⟨2, ![N, C]⟩ ⟨3, ![R, L, 1]⟩ ⟨3, ![R, L, C]⟩ [2] [0] [] [0] [] 2 ![1, C])
  (idx : IVec ⟨3, ![R, L, 1]⟩ w) (r : Fin R) (l : Fin L) (c : Fin C)

/-- The table's column axis is not start-indexed … -/
theorem one_not_mem_startIndexMap : ¬ (1 : Fin 2) ∈ (rowDims N C R L wf).startIndexMap := fun h =>
  absurd (congrArg Fin.val (List.mem_singleton.mp h)) Nat.one_ne_zero

/-- … and is kept (neither collapsed nor batching). -/
theorem one_mem_sKept : (1 : Fin 2) ∈ (rowDims N C R L wf).sKept :=
  (GatherDims.mem_sKept _ _).mpr ⟨fun h => absurd (congrArg Fin.val (List.mem_singleton.mp h)) Nat.one_ne_zero, List.not_mem_nil⟩

/-- On the ROW axis the operand index is the clamped start: the axis is collapsed (no offset coordinate) and its start
    is the index array's word for (r, l). -/
theorem operandIdx_row :
    ((rowDims N C R L wf).operandIdx (ix3 r l c) idx (0 : Fin 2)).val = min (idx (ix3 r l (0 : Fin 1))).toInt.toNat (N - 1) := by
  show (rowDims N C R L wf).start (ix3 r l c) idx 0 + (rowDims N C R L wf).batchCoord (ix3 r l c) 0
      + (rowDims N C R L wf).offCoord (ix3 r l c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R L wf).startIndexMap from List.mem_singleton.mpr rfl)]
  have hsi : (rowDims N C R L wf).siIdx (ix3 r l c) ⟨List.idxOf (0 : Fin 2) (rowDims N C R L wf).startIndexMap,
      List.idxOf_lt_length_iff.2 (List.mem_singleton.mpr rfl)⟩ = ix3 r l (0 : Fin 1) := by
    funext b; refine Fin.ext ?_
    match b with
    | ⟨0, _⟩ => rfl
    | ⟨1, _⟩ => rfl
    | ⟨2, _⟩ => rfl
  rw [hsi]
  rfl

/-- On the COLUMN axis it is the result's offset coordinate: not start-indexed (start 0), read by the result's axis 2. -/
theorem operandIdx_col :
    ((rowDims N C R L wf).operandIdx (ix3 r l c) idx (1 : Fin 2)).val = c.val := by
  show (rowDims N C R L wf).start (ix3 r l c) idx 1 + (rowDims N C R L wf).batchCoord (ix3 r l c) 1
      + (rowDims N C R L wf).offCoord (ix3 r l c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

/-- THE GATHER READ AT (r, l, c): the table at the clamped start row and column c. -/
theorem gather_rows_apply {N C R L w : Nat} (hN : 0 < N)
    (wf : GatherDims.WF ⟨2, ![N, C]⟩ ⟨3, ![R, L, 1]⟩ ⟨3, ![R, L, C]⟩ [2] [0] [] [0] [] 2 ![1, C])
    (x : (⟨2, ![N, C]⟩ : Shape).Idx → α) (idx : IVec ⟨3, ![R, L, 1]⟩ w) (r : Fin R) (l : Fin L) (c : Fin C) :
    Host.gather (rowDims N C R L wf) x idx (ix3 r l c)
      = x (ix2 ⟨min (idx (ix3 r l (0 : Fin 1))).toInt.toNat (N - 1), by omega⟩ c) := by
  unfold Host.gather
  refine congrArg x (funext fun a => Fin.ext ?_)
  match a with
  | ⟨0, _⟩ => exact operandIdx_row wf idx r l c
  | ⟨1, _⟩ => exact operandIdx_col wf idx r l c

end Cert.RowGather

end
-- ==== Proof.RefArray.lean ====
/-
  The reference computes the specification (Score.lean's prob), when every history word is below 256.

  Read one stage at a time: a word in [0, 256) is not negative, so jnp's wrap of negative indices leaves it, and the
  gather's clamp into [0, 255] leaves it too: the gathered row is the table's row at the word's own slot. After the
  bias and tanh this is the activation act f slot at (b, l, f); the transpose and reshape put it at column f * 200 + l
  of row b; the contraction with the transposed second-layer weight is the sum over the 400 columns, which is the
  double sum over filter and position (sum_cols); and 1 / (1 + exp (-(score + bias))) is the logistic function.
-/
import proofs.«403384_j13881334301020_2_alg».proof.Proof.Gen.ReferenceIdeal.Read
import proofs.«403384_j13881334301020_2_alg».proof.Proof.Score
import proofs.«403384_j13881334301020_2_alg».proof.Proof.LibRowGather

noncomputable section

open scoped BigOperators

namespace Cert.ReferenceIdeal.AsScore

open Cert.ReferenceIdeal Cert.ReferenceIdeal.Gen Cert.ReferenceIdeal.Read
open Idealize.ShloMosaic Idealize.ShloMosaic.ValueIdx Cert.Score

variable (x0 : (⟨S131072x200, .i32⟩ : BufTy).Contents (Elt Ideal)) (x1 : (⟨S2x256, .f32⟩ : BufTy).Contents (Elt Ideal))
  (x2 : (⟨S2, .f32⟩ : BufTy).Contents (Elt Ideal)) (x3 : (⟨S1x400, .f32⟩ : BufTy).Contents (Elt Ideal))
  (x4 : (⟨S1, .f32⟩ : BufTy).Contents (Elt Ideal))

/-- The start index the gather reads for (b, l): the history word itself — it is not negative, so the wrap of negative
    indices (add 256 where below zero) does not apply. -/
theorem start_word (hseq : ∀ i, (x0 i).toNat < 256) (b : Fin 131072) (l : Fin 200) :
    val_main_v6 (F := Ideal) x0 (ix3 b l (0 : Fin 1)) = x0 (ix2 b l) := by
  rw [val_main_v6_apply]
  have e : idx_main_v6 (ix3 b l (0 : Fin 1)) = ix2 b l := by
    funext a; match a with | ⟨0, _⟩ => rfl | ⟨1, _⟩ => rfl
  rw [e, val_main_v5_apply, val_main_v2_apply, val_main_v1_apply, val_main_c_apply, not_slt_zero (hseq _), select_zero]

/-- The gathered entry at (b, l, f) is c1_w at (f, the word's slot): the clamp leaves a word below 256, and the table is
    c1_w transposed. -/
theorem gathered (hseq : ∀ i, (x0 i).toNat < 256) (b : Fin 131072) (l : Fin 200) (f : Fin 2) :
    val_main_v7 (F := Ideal) x0 x1 (ix3 b l f) = x1 (ix2 f (slot (x0 (ix2 b l)))) := by
  unfold val_main_v7
  show Host.gather (Cert.RowGather.rowDims 256 2 131072 200 Gen.gather_S256x2_S131072x200x1_S131072x200x2_2_0_n_n_0_2_12_wf)
      (val_main_v0 (F := Ideal) x1) (val_main_v6 (F := Ideal) x0) (ix3 b l f) = _
  rw [Cert.RowGather.gather_rows_apply (by decide), val_main_v0_apply]
  refine congrArg x1 (funext fun a => Fin.ext ?_)
  match a with
  | ⟨0, _⟩ => rfl
  | ⟨1, _⟩ =>
    show min (val_main_v6 (F := Ideal) x0 (ix3 b l (0 : Fin 1))).toInt.toNat (256 - 1) = (slot (x0 (ix2 b l))).val
    rw [start_word x0 hseq, clamp_of_lt (hseq _), slot_val (hseq _)]

/-- Column f * 200 + l of row b of the flattened hidden layer is the activation at (b, l, f). -/
theorem hidden_col (b : Fin 131072) (z : Fin 1) (f : Fin 2) (l : Fin 200) :
    idx_main_v12 (idx_main_v13 (lidx_main_v15 (ix2 b z) (wcol f l))) = ix3 b l f := by
  have hb := b.isLt; have hf := f.isLt; have hl := l.isLt
  funext a; refine Fin.ext ?_
  match a with
  | ⟨0, _⟩ => show (b.val * 400 + (f.val * 200 + l.val)) / 400 = b.val; omega
  | ⟨1, _⟩ => show (b.val * 400 + (f.val * 200 + l.val)) % 200 = l.val; omega
  | ⟨2, _⟩ => show (b.val * 400 + (f.val * 200 + l.val)) / 200 % 2 = f.val; omega

/-- The flattened hidden layer at that column: filter f's activation at the slot the word at (b, l) names. -/
theorem hidden_apply (hseq : ∀ i, (x0 i).toNat < 256) (b : Fin 131072) (z : Fin 1) (f : Fin 2) (l : Fin 200) :
    val_main_v13 (F := Ideal) x0 x1 x2 (lidx_main_v15 (ix2 b z) (wcol f l)) = act x1 x2 f (slot (x0 (ix2 b l))) := by
  rw [val_main_v13_apply, val_main_v12_apply, hidden_col, val_main_v11_apply, val_main_v10_apply, gathered x0 x1 hseq,
    val_main_v9_apply, val_main_v8_apply]
  have e : idx_main_v8 (idx_main_v9 (ix3 b l f)) = ix1 f := by
    funext a; match a with | ⟨0, _⟩ => rfl
  rw [e]
  rfl

/-- The transposed second-layer weight at that column. -/
theorem weight_apply (b : Fin 131072) (z : Fin 1) (f : Fin 2) (l : Fin 200) :
    val_main_v14 (F := Ideal) x3 (ridx_main_v15 (ix2 b z) (wcol f l)) = x3 (ix2 (0 : Fin 1) (wcol f l)) := by
  rw [val_main_v14_apply]
  refine congrArg x3 (funext fun a => Fin.ext ?_)
  match a with
  | ⟨0, _⟩ => show z.val = 0; omega
  | ⟨1, _⟩ => rfl

/-- The bias, broadcast to every sample. -/
theorem bias_apply (i : S131072x1.Idx) : val_main_v17 (F := Ideal) x4 i = x4 (ix1 (0 : Fin 1)) := by
  rw [val_main_v17_apply, val_main_v16_apply]
  refine congrArg x4 (funext fun a => ?_)
  match a with | ⟨0, _⟩ => rfl

/-- THE REFERENCE IS THE SPECIFICATION. -/
theorem ref_eq_prob (hseq : ∀ i, (x0 i).toNat < 256) :
    val_main_v24 (F := Ideal) x0 x1 x2 x3 x4 = prob x0 x1 x2 x3 x4 := by
  funext i
  obtain ⟨b, z, rfl⟩ : ∃ (b : Fin 131072) (z : Fin 1), i = ix2 b z := ⟨i 0, i 1, eq_ix2 i⟩
  rw [val_main_v24_apply, val_main_v23_apply, val_main_cst_1_apply, val_main_v22_apply, val_main_v21_apply, val_main_cst_apply,
    val_main_v20_apply, val_main_v19_apply, val_main_v18_apply, val_main_v15_apply, bias_apply, sum_cols]
  have hs : (∑ f : Fin 2, ∑ l : Fin 200, val_main_v13 (F := Ideal) x0 x1 x2 (lidx_main_v15 (ix2 b z) (wcol f l))
        * val_main_v14 (F := Ideal) x3 (ridx_main_v15 (ix2 b z) (wcol f l))) = score x0 x1 x2 x3 b :=
    Finset.sum_congr rfl fun f _ => Finset.sum_congr rfl fun l _ => by
      rw [hidden_apply x0 x1 x2 hseq, weight_apply]
  rw [hs]
  show Ideal.div (Ideal.ofBits .f32 0x3F800000#32) (Ideal.ofBits .f32 0x3F800000#32 + Ideal.exp (-(score x0 x1 x2 x3 b + x4 (ix1 (0 : Fin 1)))))
    = Ideal.logistic (score x0 x1 x2 x3 b + x4 (ix1 (0 : Fin 1)))
  rw [one_f32]
  rfl

end Cert.ReferenceIdeal.AsScore

end
-- ==== Proof.SeqRange.lean ====
/-
  The precondition, decoded: every history word is a table slot.

  The precondition's last conjunct is "all of (seq ≥ 0 and seq < 256)", both comparisons signed. A conjunction of bits
  is 1 only if each is; an all-reduction by "and" that is 1 had a 1 at every index; and a word whose signed reading lies
  in [0, 256) has that value as its unsigned reading. So under the precondition every history word, read unsigned, is
  below 256 — the only part of the precondition the value argument uses (the finiteness of the parameters is not
  needed: the two arrangements of the score differ only by reordering sums and by products with 0 and 1).
-/
import proofs.«403384_j13881334301020_2_alg».proof.Pre_finite_inputs
import proofs.«403384_j13881334301020_2_alg».proof.Proof.Gen.Pre_finite_inputs
import Idealize.ShloMosaic.Lib.ReduceAll
import Idealize.ShloMosaic.Lib.ValueIdx

noncomputable section

namespace Cert.Pre_finite_inputs.SeqRange

open Cert.Pre_finite_inputs Cert.Pre_finite_inputs.Gen
open Idealize.ShloMosaic Idealize.ShloMosaic.ValueIdx

/-- The scalar shape has one index. -/
instance : Subsingleton S_.Idx := ⟨fun a b => funext fun d => d.elim0⟩

/-- A word whose signed reading is in [0, 256) is below 256 read unsigned. -/
theorem toNat_lt_of_toInt (w : BitVec 32) (h0 : 0 ≤ w.toInt) (h1 : w.toInt < 256) : w.toNat < 256 := by
  have hc := BitVec.toInt_eq_toNat_cond w
  have hlt := w.isLt
  split at hc <;> omega

/-- THE PRECONDITION DECODED at a history word. -/
theorem word_lt {F : FTy → Type} [FloatOps F] (x0 : IVec S131072x200 32) (x1 : FVec F S2x256 .f32) (x2 : FVec F S2 .f32)
    (x3 : FVec F S1x400 .f32) (x4 : FVec F S1 .f32) (h : fn (F := F) x0 x1 x2 x3 x4 = fun _ => 1#1) (i : S131072x200.Idx) :
    (x0 i).toNat < 256 := by
  have e := congrFun h ix0
  unfold fn at e
  dsimp only at e
  unfold fn_part1 at e
  dsimp only at e
  have e2 : Host.reduce IntOp.andi
      (andi (cmpi .sge x0 (broadcastInDim S131072x200 ![] bcast_S_S131072x200 (constantI S_ 32 0#32)))
        (cmpi .slt x0 (broadcastInDim S131072x200 ![] bcast_S_S131072x200 (constantI S_ 32 256#32))))
      (constantI S_ 1 1#1) reducesTo_S131072x200_S_d0_1 h_S_ ix0 = 1#1 := (IntOp.andi_eq_one.1 e).2
  have e3 := Host.reduce_andi_all _ _ _ _ ix0 e2 i
  obtain ⟨hge, hlt⟩ := IntOp.andi_eq_one.1 e3
  have hge' : (0#32 : BitVec 32).toInt ≤ (x0 i).toInt := IntOp.cmpi_sge.1 hge
  have hlt' : (x0 i).toInt < (256#32 : BitVec 32).toInt := IntOp.cmpi_slt.1 hlt
  have z0 : (0#32 : BitVec 32).toInt = 0 := by decide
  have z1 : (256#32 : BitVec 32).toInt = 256 := by decide
  rw [z0] at hge'
  rw [z1] at hlt'
  exact toNat_lt_of_toInt _ hge' hlt'

end Cert.Pre_finite_inputs.SeqRange

end
-- ==== Proof.lean ====
/-
  The proof of Cert.Claim for a two-layer branch-predictor network evaluated by table lookup.

  The network: each sample is 200 history words naming slots of a 256-entry table; filter f (of two) has hidden
  activation tanh (c1_w[f, slot] + c1_b[f]) at each history position; the output is the logistic function of the sum
  over filters and positions of activation times the second-layer weight at the filter-major column, plus a bias.

  The kernel first folds the first layer into one [200, 256] table on the host (entry (l, s): position l's contribution
  if its word names slot s), then per block of 128 samples selects the table entry of each word by a one-hot product
  summed over the lanes, sums over the positions, adds the bias and applies the logistic function. The reference gathers
  the weight columns by the words, applies the bias and tanh, flattens filter-major and contracts with the second-layer
  weight, and computes 1 / (1 + exp (-x)). Over the extended reals both are Score.lean's prob of the arguments, PROVIDED
  every history word is a table slot (in [0, 256)): outside that range the kernel's one-hot matches nothing and
  contributes 0 while the reference's gather clamps to a table row, so the range is part of the precondition. The
  finiteness of the float parameters is not used: the two arrangements differ by reordering sums and by products with
  0 and 1, which hold on all extended reals.

  Frames: the kernel's two are the generated class-A certificates; the reference's is its generated run with the
  result dropped. preserves: the ideal pass rewrote nothing. algebraic: the kernel's run read as one whole array
  (KernelArray.lean) beside the reference's run read stage by stage (RefArray.lean), under the precondition decoded
  (SeqRange.lean).
-/
import proofs.«403384_j13881334301020_2_alg».proof.Defs
import proofs.«403384_j13881334301020_2_alg».proof.Proof.Gen.Kernel
import proofs.«403384_j13881334301020_2_alg».proof.Proof.Gen.Kernel.Skeleton
import proofs.«403384_j13881334301020_2_alg».proof.Proof.Gen.Kernel.Launch
import proofs.«403384_j13881334301020_2_alg».proof.Proof.Gen.Kernel.Points
import proofs.«403384_j13881334301020_2_alg».proof.Proof.Gen.Kernel.Frame
import proofs.«403384_j13881334301020_2_alg».proof.Proof.Gen.KernelIdeal
import proofs.«403384_j13881334301020_2_alg».proof.Proof.Gen.KernelIdeal.Skeleton
import proofs.«403384_j13881334301020_2_alg».proof.Proof.Gen.KernelIdeal.Launch
import proofs.«403384_j13881334301020_2_alg».proof.Proof.Gen.KernelIdeal.Points
import proofs.«403384_j13881334301020_2_alg».proof.Proof.Gen.KernelIdeal.Frame
import proofs.«403384_j13881334301020_2_alg».proof.Proof.Gen.ReferenceIdeal
import proofs.«403384_j13881334301020_2_alg».proof.Proof.Gen.Pre_finite_inputs
import proofs.«403384_j13881334301020_2_alg».proof.Proof.Gen.KernelIdeal.Value
import proofs.«403384_j13881334301020_2_alg».proof.Proof.Gen.ReferenceIdeal.Run
import proofs.«403384_j13881334301020_2_alg».proof.Proof.Gen.ReferenceIdeal.Read
import proofs.«403384_j13881334301020_2_alg».proof.Proof.KernelArray
import proofs.«403384_j13881334301020_2_alg».proof.Proof.RefArray
import proofs.«403384_j13881334301020_2_alg».proof.Proof.SeqRange
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Under the precondition every history word is a table slot (SeqRange.lean); then the kernel's result array is the
    specification of its arguments (KernelArray.lean) and so is the reference's, of arguments that agree (RefArray.lean). -/
theorem algebraic : Cert.algebraic_KernelIdeal_ReferenceIdeal := by
  intro m ρ m' ρ' hpre hagree
  have hseq : ∀ (c : Dev Cert.KernelIdeal.nD) i, (Cert.KernelIdeal.Table.seqArr m c i).toNat < 256 := fun c i =>
    Cert.Pre_finite_inputs.SeqRange.word_lt _ _ _ _ _ (hpre c) i
  refine ⟨fun c => Cert.Score.prob (Cert.KernelIdeal.Table.seqArr m c) (Cert.KernelIdeal.Table.c1wArr m c)
      (Cert.KernelIdeal.Table.c1bArr m c) (Cert.KernelIdeal.Table.l2wArr m c) (Cert.KernelIdeal.Table.l2bArr m c),
    Cert.KernelIdeal.Whole.run m ρ hseq, ?_⟩
  refine (θ_run Cert.ReferenceIdeal.defs _ _).mono (fun _ h c =>
    ⟨(h c).1.trans ((Cert.ReferenceIdeal.Read.val_main_v24_eq _ _ _ _ _).trans ?_), (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.AsScore.ref_eq_prob _ _ _ _ _ (hseq c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
